-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x32000 : Shape := ⟨3, ![4, 2048, 32000]⟩
abbrev S4x2048 : Shape := ⟨2, ![4, 2048]⟩
abbrev S_ : Shape := ⟨0, ![]⟩

class Facts : Prop where
  bcast_S_S4x2048x32000 : S_.BroadcastsInDim S4x2048x32000 (![] : Fin 0 → Fin S4x2048x32000.rank)
  reducesTo_S4x2048x32000_S_d0_1_2 : S4x2048x32000.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S4x2048x32000 .f32) (main_arg1 : IVec S4x2048 32) : IVec S_ 1 :=
  let main_v0 : FVec F S4x2048x32000 .f32 := Host.absf main_arg0
  let main_cst : FVec F S_ .f32 := constant S_ .f32 0x7F800000#32
  let main_v1 : FVec F S4x2048x32000 .f32 := broadcastInDim S4x2048x32000 ![] bcast_S_S4x2048x32000 main_cst
  let main_v2 : IVec S4x2048x32000 1 := cmpf .olt main_v0 main_v1
  let main_c : IVec S_ 1 := constantI S_ 1 1#1
  let main_v3 : IVec S_ 1 := (fun x v => Host.reduce IntOp.andi x v reducesTo_S4x2048x32000_S_d0_1_2 h_S_) main_v2 main_c
  let main_c_0 : IVec S_ 32 := constantI S_ 32 0#32
  let main_v4 : IVec S4x2048 32 := broadcastInDim S4x2048 ![] bcast_S_S4x2048 main_c_0
  let main_v5 : IVec S4x2048 1 := cmpi .sge main_arg1 main_v4
  let main_c_1 : IVec S_ 32 := constantI S_ 32 32000#32
  let main_v6 : IVec S4x2048 32 := broadcastInDim S4x2048 ![] bcast_S_S4x2048 main_c_1
  let main_v7 : IVec S4x2048 1 := cmpi .slt main_arg1 main_v6
  let main_v8 : IVec S4x2048 1 := andi main_v5 main_v7
  let main_c_2 : IVec S_ 1 := constantI S_ 1 1#1
  let main_v9 : IVec S_ 1 := (fun x v => Host.reduce IntOp.andi x v reducesTo_S4x2048_S_d0_1 h_S_) main_v8 main_c_2
  let main_v10 : IVec S_ 1 := andi main_v3 main_v9
  main_v10
-- ==== Kernel.lean ====
abbrev S4x2048x32000 : Shape := ⟨3, ![4, 2048, 32000]⟩
abbrev S4x2048 : Shape := ⟨2, ![4, 2048]⟩
abbrev S8192x32000 : Shape := ⟨2, ![8192, 32000]⟩
abbrev S8192x1 : Shape := ⟨2, ![8192, 1]⟩
abbrev S1x1 : Shape := ⟨2, ![1, 1]⟩
abbrev S32x32000 : Shape := ⟨2, ![32, 32000]⟩
abbrev S32x1 : Shape := ⟨2, ![32, 1]⟩
abbrev S32 : Shape := ⟨1, ![32]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .i32⟩
  | .hbm, ⟨2, _⟩ => ⟨S8192x32000, .f32⟩
  | .hbm, ⟨3, _⟩ => ⟨S8192x1, .i32⟩
  | .hbm, ⟨4, _⟩ => ⟨S1x1, .f32⟩
  | .hbm, ⟨5, _⟩ => ⟨S_, .f32⟩
  | .local _ .vmem, ⟨0, _⟩ => ⟨S32x32000, .f32⟩
  | .local _ .vmem, ⟨1, _⟩ => ⟨S32x32000, .f32⟩
  | .local _ .vmem, ⟨2, _⟩ => ⟨S32x1, .i32⟩
  | .local _ .vmem, ⟨3, _⟩ => ⟨S32x1, .i32⟩
  | .local _ .vmem, ⟨4, _⟩ => ⟨S1x1, .f32⟩
  | _, _ => ⟨S4x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S4x2048x32000_S8192x32000 : S4x2048x32000.ShapeCasts S8192x32000
  shapeCasts_S4x2048_S8192x1 : S4x2048.ShapeCasts S8192x1
  inb_S1x1_S1x1_0_0 : ∀ a, (![0, 0] : Fin 2 → Nat) a + S1x1.size a ≤ S1x1.size a
  h_S1x1 : 0 < S1x1.numel
  inb_S32x32000_S32x32000_0_0 : ∀ a, (![0, 0] : Fin 2 → Nat) a + S32x32000.size a ≤ S32x32000.size a
  h_S32x32000 : 0 < S32x32000.numel
  shapeCasts_S32x32000_S32x32000 : S32x32000.ShapeCasts S32x32000
  reduces_S32x32000_S32 : S32x32000.Reduces [1] S32
  shapeCasts_S32_S32x1 : S32.ShapeCasts S32x1
  broadcasts_S32x1_S32x32000 : S32x1.Broadcasts S32x32000
  iota_S32x32000_d1_w32 : S32x32000.Iotas .tc 32 [1]
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S1x1_S1x1 : S1x1.ShapeCasts S1x1
  reduces_S32x1_S1 : S32x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S8192x32000.size a
  hwx0_0 : ∀ i : grid0.Coords, EltTy.bits .f32 = 32 ∨ (Rect.block (s := S8192x32000) S32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S8192x1.size a
  hwx0_1 : ∀ i : grid0.Coords, EltTy.bits .i32 = 32 ∨ (Rect.block (s := S8192x1) S32x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x32000 : Shape := ⟨3, ![4, 2048, 32000]⟩
abbrev S4x2048 : Shape := ⟨2, ![4, 2048]⟩
abbrev S_ : Shape := ⟨0, ![]⟩
abbrev S4x2048x1 : Shape := ⟨3, ![4, 2048, 1]⟩
abbrev S4x2048x1x1 : Shape := ⟨4, ![4, 2048, 1, 1]⟩
abbrev S1 : Shape := ⟨1, ![1]⟩
abbrev S1x1x1x1 : Shape := ⟨4, ![1, 1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .i32⟩
  | .hbm, ⟨2, _⟩ => ⟨S_, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S4x2048x1, .f32⟩
  | .hbm, ⟨8, _⟩ => ⟨S4x2048x32000, .f32⟩
  | .hbm, ⟨9, _⟩ => ⟨S4x2048x32000, .f32⟩
  | .hbm, ⟨10, _⟩ => ⟨S4x2048x32000, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S4x2048x1, .f32⟩
  | .hbm, ⟨15, _⟩ => ⟨S4x2048x32000, .f32⟩
  | .hbm, ⟨16, _⟩ => ⟨S4x2048x32000, .f32⟩
  | .hbm, ⟨17, _⟩ => ⟨S4x2048x1, .i32⟩
  | .hbm, ⟨18, _⟩ => ⟨S_, .i32⟩
  | .hbm, ⟨19, _⟩ => ⟨S4x2048x1, .i32⟩
  | .hbm, ⟨20, _⟩ => ⟨S4x2048x1, .i1⟩
  | .hbm, ⟨21, _⟩ => ⟨S_, .i32⟩
  | .hbm, ⟨22, _⟩ => ⟨S4x2048x1, .i32⟩
  | .hbm, ⟨23, _⟩ => ⟨S4x2048x1, .i32⟩
  | .hbm, ⟨24, _⟩ => ⟨S4x2048x1, .i32⟩
  | .hbm, ⟨25, _⟩ => ⟨S4x2048x1x1, .i32⟩
  | .hbm, ⟨26, _⟩ => ⟨S1, .i32⟩
  | .hbm, ⟨27, _⟩ => ⟨S_, .i32⟩
  | .hbm, ⟨28, _⟩ => ⟨S4x2048x1x1, .i32⟩
  | .hbm, ⟨29, _⟩ => ⟨S4x2048x1x1, .i1⟩
  | .hbm, ⟨30, _⟩ => ⟨S1x1x1x1, .i32⟩
  | .hbm, ⟨31, _⟩ => ⟨S4x2048x1x1, .i32⟩
  | .hbm, ⟨32, _⟩ => ⟨S4x2048x1x1, .i1⟩
  | .hbm, ⟨33, _⟩ => ⟨S4x2048x1x1, .i1⟩
  | .hbm, ⟨34, _⟩ => ⟨S_, .i1⟩
  | .hbm, ⟨35, _⟩ => ⟨S4x2048x1, .i1⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048, .f32⟩
  | .hbm, ⟨41, _⟩ => ⟨S4x2048, .f32⟩
  | .hbm, ⟨42, _⟩ => ⟨S_, .f32⟩
  | .hbm, ⟨43, _⟩ => ⟨S_, .f32⟩
  | _, _ => ⟨S4x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩

abbrev nD : Nat := 1
abbrev τ : Topo := Topo.v7x

variable {F : FTy → Type} [FloatOps F]

class Facts₀ : Prop where
  reducesTo_S4x2048x32000_S4x2048_d2 : S4x2048x32000.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x32000_0_1_2 : S4x2048x1.BroadcastsInDim S4x2048x32000 (![0, 1, 2] : Fin 3 → Fin S4x2048x32000.rank)
  bcast_S_S4x2048x1 : S_.BroadcastsInDim S4x2048x1 (![] : Fin 0 → Fin S4x2048x1.rank)
  shapeCasts_S4x2048x1_S4x2048x1x1 : S4x2048x1.ShapeCasts S4x2048x1x1
  bcast_S_S4x2048x1x1 : S_.BroadcastsInDim S4x2048x1x1 (![] : Fin 0 → Fin S4x2048x1x1.rank)
  bcast_S1_S1x1x1x1_3 : S1.BroadcastsInDim S1x1x1x1 (![3] : Fin 1 → Fin S1x1x1x1.rank)
  bcast_S1x1x1x1_S4x2048x1x1_0_1_2_3 : S1x1x1x1.BroadcastsInDim S4x2048x1x1 (![0, 1, 2, 3] : Fin 4 → Fin S4x2048x1x1.rank)
  reducesTo_S4x2048x1x1_S4x2048x1_d3 : S4x2048x1x1.ReducesTo [3] S4x2048x1
  shapeCasts_S4x2048x1_S4x2048 : S4x2048x1.ShapeCasts S4x2048
  reducesTo_S4x2048_S_d0_1 : S4x2048.ReducesTo [0, 1] S_
  gather_S4x2048x32000_S4x2048x1x1_S4x2048x1_n_2_01_01_2_3_111_wf : GatherDims.WF S4x2048x32000 S4x2048x1x1 S4x2048x1 [] [2] [0, 1] [2] [0, 1] 3 ![1, 1, 1]

variable [Facts₀]

def gather_S4x2048x32000_S4x2048x1x1_S4x2048x1_n_2_01_01_2_3_111 : GatherDims S4x2048x32000 S4x2048x1x1 S4x2048x1 where
  offsetDims := []
  collapsedSliceDims := [2]
  operandBatchingDims := [0, 1]
  startIndicesBatchingDims := [0, 1]
  startIndexMap := [2]
  indexVectorDim := 3
  sliceSizes := ![1, 1, 1]
  wf := gather_S4x2048x32000_S4x2048x1x1_S4x2048x1_n_2_01_01_2_3_111_wf

class Facts : Prop extends Facts₀ where

variable [Facts]
-- ==== Proof.CrossEntropy.lean ====
/-
  The summed cross-entropy of a table of rows, over the extended reals.

  For one row `v` of `n` scores and a label word `l`:
    * `rowMax v`      the largest score, taken from `⊥` (the lattice's bottom, so with at least one real score it
                       is one of the scores);
    * `logSumExp v`   `log (∑ₖ exp (vₖ − rowMax v))`;
    * `picked v l`    the score in the label's column, written as the one-hot sum `∑ₖ [k = l] · vₖ`: it is
                       `v l` for a label in `[0, n)` (`picked_of_lt`) and `0` for any other word;
    * `nll v l`       `(rowMax v + logSumExp v) − picked v l`, the row's negative log-likelihood.
  The other common spelling of that quantity negates a log-probability, `−((v l − rowMax v) − logSumExp v)`. The two
  agree as soon as `v l` and `rowMax v` are real numbers, WHATEVER extended real `logSumExp v` is
  (`sub_eq_neg_sub_sub`): negation distributes over a difference whose minuend is real, and addition of extended
  reals commutes and associates. A row of reals has a real maximum (`rowMax_ne_top`, `rowMax_ne_bot`): it is below
  `⊤` because every score is, and above `⊥` because it is at least the first score.
  A sum over `m · n` rows is the sum over `m` blocks of the sums over each block's `n` rows (`sum_blocks`).

  The table: scores `x` of shape (4, 2048, 32000) and labels `y` of shape (4, 2048). Row `r < 8192` is the pair
  `(r / 2048, r % 2048)` (`scoreRow`, `label`), and `total x y` is the sum of the 8192 rows' negative
  log-likelihoods, each at its own label.
-/
import Idealize.ShloMosaic.PureOps.Ideal.Laws
import Idealize.ShloMosaic.Lib.ValueIdx
import Mathlib.Algebra.BigOperators.Fin
import Mathlib.Logic.Equiv.Fin.Basic

noncomputable section

namespace Cert.CrossEntropy

open Idealize.ShloMosaic

variable {n : ℕ}

/-- The largest score of a row, taken from `⊥`. -/
def rowMax (v : Fin n → EReal) : EReal := (Finset.univ : Finset (Fin n)).fold max ⊥ v

/-- `log ∑ₖ exp (vₖ − rowMax v)`. -/
def logSumExp (v : Fin n → EReal) : EReal := Ideal.log (∑ k : Fin n, Ideal.exp (v k - rowMax v))

/-- The score in the label's column as a one-hot sum: column `k` counts when its number, as a 32-bit word, is the label. -/
def picked (v : Fin n → EReal) (l : BitVec 32) : EReal := ∑ k : Fin n, if BitVec.ofNat 32 k.val = l then v k else 0

/-- A row's negative log-likelihood at a label. -/
def nll (v : Fin n → EReal) (l : BitVec 32) : EReal := (rowMax v + logSumExp v) - picked v l

/-- A row of scores below `⊤` has its maximum below `⊤`. -/
theorem rowMax_ne_top (v : Fin n → EReal) (hv : ∀ k, v k ≠ ⊤) : rowMax v ≠ ⊤ := by
  refine ne_of_lt ?_
  unfold rowMax
  rw [Finset.fold_max_lt]
  exact ⟨bot_lt_top, fun k _ => lt_top_iff_ne_top.mpr (hv k)⟩

/-- A nonempty row of scores above `⊥` has its maximum above `⊥`. -/
theorem rowMax_ne_bot (v : Fin n → EReal) (k₀ : Fin n) (hv : v k₀ ≠ ⊥) : rowMax v ≠ ⊥ := by
  refine ne_of_gt ?_
  unfold rowMax
  rw [Finset.lt_fold_max]
  exact Or.inr ⟨k₀, Finset.mem_univ _, bot_lt_iff_ne_bot.mpr hv⟩

/-- For real `a` and `M` and any extended real `L`: `(M + L) − a = −((a − M) − L)`. -/
theorem sub_eq_neg_sub_sub (a M L : EReal) (ha : a ≠ ⊤ ∧ a ≠ ⊥) (hM : M ≠ ⊤ ∧ M ≠ ⊥) :
    (M + L) - a = -((a - M) - L) := by
  lift a to ℝ using ha
  lift M to ℝ using hM
  rw [← EReal.coe_sub, EReal.neg_sub (Or.inl (EReal.coe_ne_bot _)) (Or.inl (EReal.coe_ne_top _)), ← EReal.coe_neg,
    neg_sub, EReal.coe_sub, sub_eq_add_neg, sub_eq_add_neg, add_right_comm]

/-- At a label in `[0, n)` the one-hot sum is the score in that column. -/
theorem picked_of_lt (v : Fin n → EReal) (l : BitVec 32) (hn : n ≤ 2 ^ 32) (hl : l.toNat < n) :
    picked v l = v ⟨l.toNat, hl⟩ := by
  unfold picked
  rw [Finset.sum_eq_single (⟨l.toNat, hl⟩ : Fin n)]
  · rw [if_pos]
    exact BitVec.eq_of_toNat_eq (by rw [BitVec.toNat_ofNat]; exact Nat.mod_eq_of_lt (by omega))
  · intro k _ hk
    rw [if_neg]
    intro e
    apply hk
    apply Fin.ext
    have := congrArg BitVec.toNat e
    rw [BitVec.toNat_ofNat, Nat.mod_eq_of_lt (by have := k.isLt; omega)] at this
    exact this
  · intro h; exact absurd (Finset.mem_univ _) h

/-- The two spellings of a row's negative log-likelihood agree on a row of reals at a label in range. -/
theorem nll_eq_neg_logProb (v : Fin n → EReal) (l : BitVec 32) (hn : n ≤ 2 ^ 32) (hl : l.toNat < n)
    (hv : ∀ k, v k ≠ ⊤ ∧ v k ≠ ⊥) :
    nll v l = -((v ⟨l.toNat, hl⟩ - rowMax v) - logSumExp v) := by
  unfold nll
  rw [picked_of_lt v l hn hl]
  exact sub_eq_neg_sub_sub _ _ _ (hv _)
    ⟨rowMax_ne_top v fun k => (hv k).1, rowMax_ne_bot v ⟨l.toNat, hl⟩ (hv _).2⟩

/-- A sum over `m · n` rows, block by block: block `a` holds the rows `n · a + b`, `b < n`. -/
theorem sum_blocks {M : Type*} [AddCommMonoid M] (m n : ℕ) (f : Fin (m * n) → M) :
    ∑ a : Fin m, ∑ b : Fin n, f (finProdFinEquiv (a, b)) = ∑ r : Fin (m * n), f r := by
  rw [← Fintype.sum_prod_type (f := fun p : Fin m × Fin n => f (finProdFinEquiv p))]
  exact Equiv.sum_comp finProdFinEquiv f

open Idealize.ShloMosaic.ValueIdx in
/-- Row `r` of the scores: the 32000 scores of the pair `(r / 2048, r % 2048)`. -/
def scoreRow (x : (⟨3, ![4, 2048, 32000]⟩ : Shape).Idx → EReal) (r : Fin 8192) : Fin 32000 → EReal :=
  fun k => x (ix3 (⟨r.val / 2048, by have := r.isLt; omega⟩ : Fin 4) (⟨r.val % 2048, Nat.mod_lt _ (by decide)⟩ : Fin 2048) k)

open Idealize.ShloMosaic.ValueIdx in
/-- Row `r`'s label. -/
def label (y : (⟨2, ![4, 2048]⟩ : Shape).Idx → BitVec 32) (r : Fin 8192) : BitVec 32 :=
  y (ix2 (⟨r.val / 2048, by have := r.isLt; omega⟩ : Fin 4) (⟨r.val % 2048, Nat.mod_lt _ (by decide)⟩ : Fin 2048))

/-- The summed cross-entropy of the table. -/
def total (x : (⟨3, ![4, 2048, 32000]⟩ : Shape).Idx → EReal) (y : (⟨2, ![4, 2048]⟩ : Shape).Idx → BitVec 32) : EReal :=
  ∑ r : Fin 8192, nll (scoreRow x r) (label y r)

end Cert.CrossEntropy

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.Payload.lean ====
/-
  What one grid point adds: the body's arithmetic read at the one entry of its (1, 1) result.

  The body takes a block `x` of 32 rows by 32000 columns, the 32 labels `y` of those rows as a (32, 1) column, and the
  running total `acc`. Row by row it forms the row's maximum `M` (a lane reduction from `-inf`), `log ∑ exp (x − M)`
  (a lane sum of the exponentials of the shifted row, then a logarithm), and the score in the label's column as the lane
  sum of the row masked by "column number = label"; the row's term is `(M + log ∑ exp (x − M)) − picked`, which is
  `CrossEntropy.nll` of the row at its label. The 32 terms are summed down the column and added to `acc`.

  Each layout step is read at an index: a row reduction's result `[32]` viewed as a column `[32, 1]` reads the vector
  at the row; a column broadcast along the lanes reads the column at the row; a one-axis iota reads its coordinate; a
  reduction over one axis is the sum (or the maximum from `⊥`) over that axis's coordinates.
-/
import proofs.«426109_j22007412424754_2_alg».proof.Proof.Gen.KernelIdeal.Skeleton
import proofs.«426109_j22007412424754_2_alg».proof.Proof.CrossEntropy
import proofs.«426109_j22007412424754_2_alg».proof.Proof.LibColumns
import Idealize.ShloMosaic.Lib.Pipeline.Value
import Idealize.ShloMosaic.Lib.ValueIdx
import Idealize.ShloMosaic.Lib.Affine
import Idealize.ShloMosaic.PureOps.Ideal.Laws

noncomputable section

namespace Cert.KernelIdeal.Payload

open Idealize.ShloMosaic Idealize.ShloMosaic.ValueIdx Cert.KernelIdeal Cert.KernelIdeal.Gen Cert.CrossEntropy

/-- Row `q` of a block of scores. -/
def blockRow (x : FVec Ideal S32x32000 .f32) (q : Fin 32) : Fin 32000 → EReal := fun k => x (ix2 q k)

/-- The f32 pattern of `-inf` denotes the bottom of the extended reals. -/
theorem ofBits_negInf : Ideal.ofBits .f32 0xFF800000#32 = ⊥ := by simp [Ideal.ofBits, Ideal.ieee]

/-- Inserting lane `k` into row index `q` gives the entry `(q, k)`. -/
theorem lift_lane (h : S32x32000.Reduces [1] S32) (q : Fin 32) (k : Fin 32000) : h.lift (ix1 q) k = ix2 q k :=
  funext fun a => Fin.ext (match a with | ⟨0, _⟩ => rfl | ⟨1, _⟩ => rfl)

/-- Inserting row `q` into the one index of the column's sum gives the entry `(q, 0)`. -/
theorem lift_row (h : S32x1.Reduces [0] S1) (q : Fin 32) : h.lift (ix1 (0 : Fin 1)) q = ix2 q (0 : Fin 1) :=
  funext fun a => Fin.ext (match a with | ⟨0, _⟩ => rfl | ⟨1, _⟩ => rfl)

/-- A lane sum at row `q`: the sum of the row's entries. -/
theorem sum_lanes (v : FVec Ideal S32x32000 .f32) (h : S32x32000.Reduces [1] S32) (hφ : FKind.Formats .f32)
    (hacc : (0x00000000#32 : BitVec 32) = 0x00000000#32) (q : Fin 32) :
    multiReduction .add [1] S32 v 0x00000000#32 h hφ hacc (ix1 q) = ∑ k : Fin 32000, v (ix2 q k) :=
  (Ideal.multiReduction_add_single v 0x00000000#32 h hφ hacc (ix1 q)).trans
    (Finset.sum_congr rfl fun k _ => congrArg v (lift_lane h q k))

/-- A lane maximum from `-inf` at row `q`: the row's maximum from `⊥`. -/
theorem max_lanes (v : FVec Ideal S32x32000 .f32) (h : S32x32000.Reduces [1] S32) (hφ : FKind.Formats .f32)
    (hacc : (0xFF800000#32 : BitVec 32) = 0xFF800000#32) (q : Fin 32) :
    multiReduction .maximumf [1] S32 v 0xFF800000#32 h hφ hacc (ix1 q) = rowMax (blockRow v q) :=
  (Ideal.multiReduction_maximumf_single v 0xFF800000#32 h hφ hacc (ix1 q)).trans (by
    unfold rowMax
    show (Finset.univ : Finset (Fin 32000)).fold max (Ideal.ofBits .f32 0xFF800000#32) (v ∘ h.lift (ix1 q)) = _
    rw [ofBits_negInf]
    exact congrArg (fun f => (Finset.univ : Finset (Fin 32000)).fold max ⊥ f) (funext fun k => congrArg v (lift_lane h q k)))

/-- The sum down a (32, 1) column at its one result index: the sum of the 32 entries. -/
theorem sum_column (v : FVec Ideal S32x1 .f32) (h : S32x1.Reduces [0] S1) (hφ : FKind.Formats .f32)
    (hacc : (0x00000000#32 : BitVec 32) = 0x00000000#32) :
    multiReduction .add [0] S1 v 0x00000000#32 h hφ hacc (ix1 (0 : Fin 1)) = ∑ q : Fin 32, v (ix2 q (0 : Fin 1)) :=
  (Ideal.multiReduction_add_single v 0x00000000#32 h hφ hacc (ix1 (0 : Fin 1))).trans
    (Finset.sum_congr rfl fun q _ => congrArg v (lift_row h q))

/-- The column-number iota at `(q, k)` is the word `k`. -/
theorem iota_lane (h : S32x32000.Iotas .tc 32 [1]) (q : Fin 32) (k : Fin 32000) :
    iota .tc S32x32000 32 [1] h (ix2 q k) = BitVec.ofNat 32 k.val :=
  iota_single_apply .tc S32x32000 32 1 h (ix2 q k)

/-- A vector compare of words acts entry by entry. -/
theorem cmpi_apply' {s : Shape} (p : CmpIPredicate) (a b : IVec s 32) (i : s.Idx) : cmpi p a b i = IntOp.cmpi p (a i) (b i) := rfl

/-- A select on a word equality is an `if` on it. -/
theorem select_eq {α : Type} (a b : BitVec 32) (u w : α) :
    Scalar.select (IntOp.cmpi .eq a b) u w = if a = b then u else w := by
  by_cases h : a = b
  · rw [if_pos h, IntOp.cmpi_eq.mpr h]
    exact select_one u w
  · rw [if_neg h, eq_zero_of_ne_one fun e => h (IntOp.cmpi_eq.mp e)]
    exact select_zero u w

/-- The exponential and the logarithm act entry by entry. -/
theorem exp_apply {s : Shape} (v : FVec Ideal s .f32) (i : s.Idx) : exp v i = Ideal.exp (v i) := rfl
theorem log_apply {s : Shape} (v : FVec Ideal s .f32) (i : s.Idx) : log v i = Ideal.log (v i) := rfl

/-- The zero the body splats denotes `0`. -/
theorem zero_splat {s : Shape} (i : s.Idx) : broadcast s (Scalar.ofBits (F := Ideal) .f32 0x00000000#32) i = (0 : EReal) :=
  Ideal.ofBits_zero_f32

/-- THE BODY'S ARITHMETIC at the result's one entry: the running total plus the 32 rows' negative log-likelihoods,
    each row at its own label. -/
theorem pay2_apply (x : FVec Ideal S32x32000 .f32) (y : IVec S32x1 32) (acc : FVec Ideal S1x1 .f32) :
    k0_pay2 (F := Ideal) x y acc (ix2 (0 : Fin 1) (0 : Fin 1))
      = acc (ix2 (0 : Fin 1) (0 : Fin 1)) + ∑ q : Fin 32, nll (blockRow x q) (y (ix2 q (0 : Fin 1))) := by
  unfold k0_pay2
  dsimp only
  simp only [shapeCast_self]
  rw [addf_apply, Cert.Columns.shapeCast_a_a1_apply, sum_column]
  refine congrArg (acc (ix2 (0 : Fin 1) (0 : Fin 1)) + ·) (Finset.sum_congr rfl fun q _ => ?_)
  rw [subf_apply, addf_apply, log_apply, Cert.Columns.shapeCast_a_a1_apply, Cert.Columns.shapeCast_a_a1_apply,
    Cert.Columns.shapeCast_a_a1_apply, max_lanes, sum_lanes, sum_lanes]
  unfold nll logSumExp picked
  refine congrArg₂ (· - ·) (congrArg (rowMax (blockRow x q) + ·) (congrArg Ideal.log (Finset.sum_congr rfl fun k _ => ?_)))
    (Finset.sum_congr rfl fun k _ => ?_)
  · rw [exp_apply, subf_apply, Cert.Columns.broadcastTo_a1_ab_apply, Cert.Columns.shapeCast_a_a1_apply, max_lanes]
    rfl
  · rw [select_apply, cmpi_apply', iota_lane, Cert.Columns.broadcastTo_a1_ab_apply, select_eq, zero_splat]
    rfl

end Cert.KernelIdeal.Payload

end
-- ==== Proof.KernelValue.lean ====
/-
  What the kernel's result holds: the running total after the last grid point.

  The (1, 1) result block never moves: point 0 stores zero into it and then adds its block's 32 row terms; every later
  point adds its own block's 32 row terms to what the point before left; the block is written back to the array once,
  after the last point, and a reshape turns the (1, 1) array into the scalar result.
  So the block's contents after point `n` are the body's arithmetic applied `n + 1` times, from zero (`chain`, by
  induction on the point), its one entry is the sum of the first `n + 1` blocks' sums (`chain_apply`), the array ends
  holding the contents after point 255 (`final`), and the scalar is that entry, the table's total (`scalar_apply`).
  A block's row `q` at point `t` is row `32 t + q` of the (8192, 32000) view of the scores, which is row
  `(32 t + q) / 2048, (32 t + q) % 2048` of the scores themselves, and likewise for the labels (`blockRow_eq`,
  `blockLabel_eq`); summing block by block is summing over all 8192 rows (`CrossEntropy.sum_blocks`).
-/
import proofs.«426109_j22007412424754_2_alg».proof.Proof.Gen.KernelIdeal.Frame
import proofs.«426109_j22007412424754_2_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Total

open Cert.KernelIdeal Cert.KernelIdeal.Gen Idealize.ShloMosaic.ValueIdx Cert.CrossEntropy Cert.KernelIdeal.Payload

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- A LATER POINT: the body leaves, in the result block holding `xo`, its arithmetic of the scores' block `x0`, the
    labels' block `x1` and `xo`: its one covering store's payload, whose loads read the whole buffers. -/
theorem out_B (c : Dev nD) (i : grid0.Coords) (a1 : Memref sig .tc .vmem S32x32000 .f32) (h1 : a1.IsWhole)
    (a2 : Memref sig .tc .vmem S32x1 .i32) (h2 : a2.IsWhole) (a3 : Memref sig .tc .vmem S1x1 .f32) (h3 : a3.IsWhole)
    (hc : ¬cond0_0 i) (x0 : Vec F S32x32000 .f32) (x1 : Vec F S32x1 .i32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S32x32000) hz,
    View.ld_unit_zero (S := S32x1) hz, View.ld_unit_zero (S := S1x1) hz]

/-- THE FIRST POINT: the body stores the zero block, reads it back, and leaves its arithmetic of the two input blocks
    and that zero block. -/
theorem out_A (c : Dev nD) (i : grid0.Coords) (a1 : Memref sig .tc .vmem S32x32000 .f32) (h1 : a1.IsWhole)
    (a2 : Memref sig .tc .vmem S32x1 .i32) (h2 : a2.IsWhole) (a3 : Memref sig .tc .vmem S1x1 .f32) (h3 : a3.IsWhole)
    (hc : cond0_0 i) (x0 : Vec F S32x32000 .f32) (x1 : Vec F S32x1 .i32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz]
  simp only [View.readAt_eq_ld, h1.read_unread, h2.read_unread, View.ld_unit_zero (S := S32x32000) hz,
    View.ld_unit_zero (S := S32x1) hz, View.readCov_unit_zero (S := S1x1) _ hz]

/-- The two input blocks at a point, at their literal types. -/
abbrev xblk (c : Dev nD) (t : Fin cfg0.N) : Vec F S32x32000 .f32 := iblk m c 0 t
abbrev yblk (c : Dev nD) (t : Fin cfg0.N) : Vec F S32x1 .i32 := iblk m c 1 t

/-- The result block after point `n`: the body's arithmetic from the zero block at point 0, then from what the point
    before left. -/
def chain (c : Dev nD) : (n : ℕ) → n < cfg0.N → Vec F S1x1 .f32
  | 0, h => k0_pay2 (xblk m c ⟨0, h⟩) (yblk m c ⟨0, h⟩) (k0_pay1 (F := F))
  | n + 1, h => k0_pay2 (xblk m c ⟨n + 1, h⟩) (yblk m c ⟨n + 1, h⟩) (chain c n (Nat.lt_of_succ_lt h))

/-- What the result's staging buffer holds after point `n` is that running block, by induction on the point. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 256 := N_0
    have hB : ¬(⟨n + 1, h⟩ : Fin cfg0.N).val % 256 = 0 := by dsimp only; omega
    rw [outsAt0_B m c ⟨n + 1, h⟩ hB, out_B]
    show k0_pay2 _ _ (outsAt0 m c n _) = k0_pay2 _ _ (chain m c n _)
    rw [outsAt_eq c n]

/-! ## The one entry, at the ideal values -/

section Ideal

variable (mi : (ℓ : Loc nD τ sig) → Buf (Elt Ideal) ℓ)

/-- Block `t`'s sum: its 32 rows' negative log-likelihoods, each row at its own label. -/
def blockSum (c : Dev nD) (t : Fin cfg0.N) : EReal :=
  ∑ q : Fin 32, nll (blockRow (xblk mi c t) q) (yblk mi c t (ix2 q (0 : Fin 1)))

/-- The running block's one entry after point `n`: the sum of the first `n + 1` blocks' sums. -/
theorem chain_apply (c : Dev nD) : ∀ (n : ℕ) (h : n < cfg0.N),
    chain mi c n h (ix2 (0 : Fin 1) (0 : Fin 1)) = ∑ t : Fin (n + 1), blockSum mi c ⟨t.val, lt_of_lt_of_le t.isLt h⟩
  | 0, h => by
    show k0_pay2 (F := Ideal) _ _ (k0_pay1 (F := Ideal)) (ix2 (0 : Fin 1) (0 : Fin 1)) = _
    rw [pay2_apply, Fin.sum_univ_one]
    show Ideal.ofBits .f32 0x00000000#32 + _ = _
    rw [Ideal.ofBits_zero_f32, zero_add]
    rfl
  | n + 1, h => by
    show k0_pay2 (F := Ideal) _ _ (chain mi c n _) (ix2 (0 : Fin 1) (0 : Fin 1)) = _
    rw [pay2_apply, chain_apply c n]
    exact (Fin.sum_univ_castSucc fun t : Fin (n + 1 + 1) => blockSum mi c ⟨t.val, lt_of_lt_of_le t.isLt h⟩).symm

end Ideal

/-! ## From the block to the array, and to the scalar -/

/-- The last grid point. -/
abbrev tLast : Fin cfg0.N := ⟨255, by rw [show cfg0.N = 256 from N_0]; decide⟩

/-- What the (1, 1) result array ends holding: the running block after the last point. -/
abbrev result (c : Dev nD) : Buf (Elt F) ((c : Thread nD τ).loc main_v2) := chain m c 255 tLast.isLt

/-- The one write-back, at the last point, writes it: the block at (0, 0) of a (1, 1) array is the array. -/
theorem flushed_eq (c : Dev nD) (t : Fin cfg0.N) (hf : (cfg0.win 2).flush t = true) :
    (dats m 0 c).flushed 2 t = ((cfg0.win 2).blk t).view.read (Elt F) (result m c) := by
  have hN : cfg0.N = 256 := N_0
  have h255 : t.val = 255 := by have := (flush0_2 t).mp hf; have := t.isLt; omega
  obtain rfl : t = tLast := Fin.ext h255
  show (cfg0.win 2).cut (grid0.coords tLast) ((dats m 0 c).after 2 tLast) = _
  rw [after0_2, outsAt_eq]
  have hz' : (fun a => win0_2.index tLast a * main_v2.ty.shape.size a) = fun _ => 0 := funext fun a => by fin_cases a <;> decide
  exact (Memref.read_access_unit_zero (Elt F) main_v2 hz' (fun a => by rw [congrFun hz' a]; simp) (result m c)).symm

/-- So the result array ends holding the running block after the last point: that point's block covers it. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The scalar the reshape after the region leaves: the (1, 1) array viewed without its two unit axes. -/
abbrev scalar (c : Dev nD) : Buf (Elt F) ((c : Thread nD τ).loc main_v3) := shapeCast S_ (result m c) shapeCasts_S1x1_S_

/-- After the one host line that follows the region, the result buffer holds that scalar. -/
theorem tail_eq (c : Dev nD) :
    Pipeline.afterTail₀ cfgs (dats m) 0 (V0 m) [hostOps1] c main_v3 = scalar m c := by
  unfold Pipeline.afterTail₀
  show StableHlo.after hostOps1 _ (Proc.devRef .tc main_v3) = _
  after_results
  exact congrArg (fun v => shapeCast S_ v shapeCasts_S1x1_S_)
    ((Pipeline.withArrays_arr spec0 launch0.win.arr_inj c _ _ 2).trans (final m c))

/-- THE RUN, READ: every weakly fair execution of the kernel's @main terminates with the result buffer at that scalar
    and the two arguments unchanged. -/
theorem run : θ_run defs (onTc (τ := τ) (main (F := F))) ⟨m, fun _ => 0, ρ⟩ fun r => ∀ c : Dev nD,
      r.2.mem ((c.tc : Thread nD τ).loc main_v3) = scalar m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-! ## The blocks' rows are the table's rows -/

section Rows

variable (mi : (ℓ : Loc nD τ sig) → Buf (Elt Ideal) ℓ)

/-- The scores' window is at block `(t, 0)` and the labels' at block `(t, 0)`, at every point `t`: decided over the grid. -/
theorem idx_scores : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_labels : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The region finds the scores as their (8192, 32000) view and the labels as their (8192, 1) view: the two reshapes
    before it. -/
theorem V_scores (c : Dev nD) : (V mi c main_v0 : S8192x32000.Idx → EReal)
    = shapeCast S8192x32000 (mi ((c : Thread nD τ).loc main_arg0)) shapeCasts_S4x2048x32000_S8192x32000 := by
  show StableHlo.after hostOps0 (fun b => mi (c, b)) (Proc.devRef .tc main_v0) = _
  after_results
  rfl
theorem V_labels (c : Dev nD) : (V mi c main_v1 : S8192x1.Idx → BitVec 32)
    = shapeCast S8192x1 (mi ((c : Thread nD τ).loc main_arg1)) shapeCasts_S4x2048_S8192x1 := by
  show StableHlo.after hostOps0 (fun b => mi (c, b)) (Proc.devRef .tc main_v1) = _
  after_results
  rfl

/-- The (8192, 32000) view at `(r, k)` is the table at `(r / 2048, r % 2048, k)`: the same row-major position. -/
theorem scores_view_apply (x : S4x2048x32000.Idx → EReal) (h : S4x2048x32000.ShapeCasts S8192x32000) (r : Fin 8192) (k : Fin 32000) :
    shapeCast S8192x32000 x h (ix2 r k) = scoreRow x r k :=
  shapeCast_apply x h _ _ (by
    rw [Shape.rowMajor_val_three, Shape.rowMajor_val_two]
    show (r.val / 2048 * 2048 + r.val % 2048) * 32000 + k.val = r.val * 32000 + k.val
    omega)

/-- The (8192, 1) view at `(r, 0)` is the labels at `(r / 2048, r % 2048)`. -/
theorem labels_view_apply (y : S4x2048.Idx → BitVec 32) (h : S4x2048.ShapeCasts S8192x1) (r : Fin 8192) :
    shapeCast S8192x1 y h (ix2 r (0 : Fin 1)) = label y r :=
  shapeCast_apply y h _ _ (by
    rw [Shape.rowMajor_val_two, Shape.rowMajor_val_two]
    show r.val / 2048 * 2048 + r.val % 2048 = r.val * 1 + 0
    omega)

/-- Row `32 t + q` of the table, for block `t` and row `q` of the block. -/
abbrev rowOf (t : Fin cfg0.N) (q : Fin 32) : Fin 8192 :=
  ⟨32 * t.val + q.val, by have := lt_of_lt_of_eq t.isLt (show cfg0.N = 256 from N_0); have := q.isLt; omega⟩

/-- Row `q` of the scores' block at point `t` is row `32 t + q` of the table. -/
theorem blockRow_eq (c : Dev nD) (t : Fin cfg0.N) (q : Fin 32) :
    blockRow (xblk mi c t) q = scoreRow (mi ((c : Thread nD τ).loc main_arg0)) (rowOf t q) := by
  funext k
  show iblk mi c 0 t (ix2 q k) = _
  unfold iblk
  rw [View.read_apply]
  show (V mi c main_v0 : S8192x32000.Idx → EReal) _ = _
  rw [V_scores]
  refine Eq.trans (congrArg _ ?_) (scores_view_apply _ _ (rowOf t q) k)
  funext a
  apply Fin.ext
  match a with
  | ⟨0, _⟩ => show win0_0.index t 0 * 32 + 1 * q.val = 32 * t.val + q.val; rw [(idx_scores t).1]; omega
  | ⟨1, _⟩ => show win0_0.index t 1 * 32000 + 1 * k.val = k.val; rw [(idx_scores t).2]; omega

/-- The label of row `q` of the block at point `t` is the label of row `32 t + q` of the table. -/
theorem blockLabel_eq (c : Dev nD) (t : Fin cfg0.N) (q : Fin 32) :
    yblk mi c t (ix2 q (0 : Fin 1)) = label (mi ((c : Thread nD τ).loc main_arg1)) (rowOf t q) := by
  show iblk mi c 1 t (ix2 q (0 : Fin 1)) = _
  unfold iblk
  rw [View.read_apply]
  show (V mi c main_v1 : S8192x1.Idx → BitVec 32) _ = _
  rw [V_labels]
  refine Eq.trans (congrArg _ ?_) (labels_view_apply _ _ (rowOf t q))
  funext a
  apply Fin.ext
  match a with
  | ⟨0, _⟩ => show win0_1.index t 0 * 32 + 1 * q.val = 32 * t.val + q.val; rw [(idx_labels t).1]; omega
  | ⟨1, _⟩ => show win0_1.index t 1 * 1 + 1 * (0 : Fin 1).val = (0 : Fin 1).val; rw [(idx_labels t).2]; rfl

/-- THE KERNEL'S VALUE: the scalar is the summed cross-entropy of the table. -/
theorem scalar_apply (c : Dev nD) (j : S_.Idx) :
    scalar mi c j = total (mi ((c : Thread nD τ).loc main_arg0)) (mi ((c : Thread nD τ).loc main_arg1)) := by
  have hN : cfg0.N = 256 := N_0
  have e0 : scalar mi c j = result mi c (ix2 (0 : Fin 1) (0 : Fin 1)) :=
    shapeCast_apply (s := S1x1) (t := S_) (result mi c) shapeCasts_S1x1_S_ j (ix2 (0 : Fin 1) (0 : Fin 1)) (by
      show (S1x1.rowMajor (ix2 (0 : Fin 1) (0 : Fin 1))).val = (S_.rowMajor j).val
      rw [Shape.rowMajor_val_two]
      have := (S_.rowMajor j).isLt
      have h1 : S_.numel = 1 := by decide
      show 0 * 1 + 0 = (S_.rowMajor j).val
      omega)
  rw [e0]
  show chain mi c 255 _ (ix2 (0 : Fin 1) (0 : Fin 1)) = _
  rw [chain_apply]
  unfold total
  rw [← sum_blocks 256 32 (fun r : Fin (256 * 32) => nll (scoreRow (mi ((c : Thread nD τ).loc main_arg0)) r) (label (mi ((c : Thread nD τ).loc main_arg1)) r))]
  refine Finset.sum_congr rfl fun t _ => ?_
  unfold blockSum
  refine Finset.sum_congr rfl fun q _ => ?_
  rw [blockRow_eq, blockLabel_eq]
  have er : rowOf (⟨t.val, lt_of_lt_of_le t.isLt tLast.isLt⟩ : Fin cfg0.N) q = (finProdFinEquiv (t, q) : Fin (256 * 32)) :=
    Fin.ext (by
      show 32 * t.val + q.val = _
      rw [finProdFinEquiv_apply_val]
      show 32 * t.val + q.val = q.val + 32 * t.val
      omega)
  rw [er]

end Rows

end Cert.KernelIdeal.Total

end
-- ==== Proof.RefRun.lean ====
/-
  The reference's run: `log_softmax` over the last axis, the log-probability in each label's column, negated and summed.

  The reference's @main is 42 host operations in a straight line (the two functions it calls stand in their calls'
  places): per row the maximum of the scores, the scores shifted by it, their exponentials summed, the logarithm of
  that sum subtracted again (`log_softmax`); then per row the label wrapped into `[0, 32000)` if negative, a mask that
  says whether the wrapped label is in range, the log-probability gathered in that column, a fill value where the mask
  is off; then the negation and the sum over all 8192 rows from zero.
  Listed here as that straight line of operations, each over its own buffer. The two called functions' operations
  reach their buffers through typed references, which move a value to the buffer's own type and back along an
  equation of types that is the identity; one operation at a time that identity is seen at once (`ops_eq`), so @main
  is the sequence of the operations as listed here (`main_eq`), and `run`: every weakly fair execution terminates
  with the result buffer at the last stage's value of the two arguments (the stages one by one are in the module this
  one imports), and the arguments unchanged.
-/
import proofs.«426109_j22007412424754_2_alg».proof.Proof.RefRunP
import proofs.«426109_j22007412424754_2_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 42 operations, in order: `log_softmax` (15), the labels as a column (1), `take_along_axis` (22), then the
    reshape, the negation, the zero and the sum. -/
abbrev ops : List (HloOp τ sig (Elt F)) :=
  [ nullary main_call0_cst (constant S_ .f32 0xFF800000#32 : (⟨S_, .f32⟩ : BufTy).Contents (Elt F)),
    binary main_arg0 main_call0_cst main_call0_v0 ((fun x v => Host.reduce FloatOps.maximumf x v reducesTo_S4x2048x32000_S4x2048_d2 h_S_) : (⟨S4x2048x32000, .f32⟩ : BufTy).Contents (Elt F) → (⟨S_, .f32⟩ : BufTy).Contents (Elt F) → (⟨S4x2048, .f32⟩ : BufTy).Contents (Elt F)),
    nullary main_call0_cst_0 (constant S_ .f32 0xFF800000#32 : (⟨S_, .f32⟩ : BufTy).Contents (Elt F)),
    unary main_call0_cst_0 main_call0_v1 ((broadcastInDim S4x2048 ![] bcast_S_S4x2048) : (⟨S_, .f32⟩ : BufTy).Contents (Elt F) → (⟨S4x2048, .f32⟩ : BufTy).Contents (Elt F)),
    binary main_call0_v1 main_call0_v0 main_call0_v2 (maximumf : (⟨S4x2048, .f32⟩ : BufTy).Contents (Elt F) → (⟨S4x2048, .f32⟩ : BufTy).Contents (Elt F) → (⟨S4x2048, .f32⟩ : BufTy).Contents (Elt F)),
    unary main_call0_v2 main_call0_v3 ((broadcastInDim S4x2048x1 ![0, 1] bcast_S4x2048_S4x2048x1_0_1) : (⟨S4x2048, .f32⟩ : BufTy).Contents (Elt F) → (⟨S4x2048x1, .f32⟩ : BufTy).Contents (Elt F)),
    unary main_call0_v3 main_call0_v4 ((broadcastInDim S4x2048x32000 ![0, 1, 2] bcast_S4x2048x1_S4x2048x32000_0_1_2) : (⟨S4x2048x1, .f32⟩ : BufTy).Contents (Elt F) → (⟨S4x2048x32000, .f32⟩ : BufTy).Contents (Elt F)),
    binary main_arg0 main_call0_v4 main_call0_v5 (subf : (⟨S4x2048x32000, .f32⟩ : BufTy).Contents (Elt F) → (⟨S4x2048x32000, .f32⟩ : BufTy).Contents (Elt F) → (⟨S4x2048x32000, .f32⟩ : BufTy).Contents (Elt F)),
    unary main_call0_v5 main_call0_v6 (Host.exp : (⟨S4x2048x32000, .f32⟩ : BufTy).Contents (Elt F) → (⟨S4x2048x32000, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S4x2048x32000_S4x2048_d2 h_S_) : (⟨S4x2048x32000, .f32⟩ : BufTy).Contents (Elt F) → (⟨S_, .f32⟩ : BufTy).Contents (Elt F) → (⟨S4x2048, .f32⟩ : BufTy).Contents (Elt F)),
    unary main_call0_v7 main_call0_v8 ((broadcastInDim S4x2048x1 ![0, 1] bcast_S4x2048_S4x2048x1_0_1) : (⟨S4x2048, .f32⟩ : BufTy).Contents (Elt F) → (⟨S4x2048x1, .f32⟩ : BufTy).Contents (Elt F)),
    unary main_call0_v8 main_call0_v9 (Host.log : (⟨S4x2048x1, .f32⟩ : BufTy).Contents (Elt F) → (⟨S4x2048x1, .f32⟩ : BufTy).Contents (Elt F)),
    unary main_call0_v9 main_call0_v10 ((broadcastInDim S4x2048x32000 ![0, 1, 2] bcast_S4x2048x1_S4x2048x32000_0_1_2) : (⟨S4x2048x1, .f32⟩ : BufTy).Contents (Elt F) → (⟨S4x2048x32000, .f32⟩ : BufTy).Contents (Elt F)),
    binary main_call0_v5 main_call0_v10 main_v0 (subf : (⟨S4x2048x32000, .f32⟩ : BufTy).Contents (Elt F) → (⟨S4x2048x32000, .f32⟩ : BufTy).Contents (Elt F) → (⟨S4x2048x32000, .f32⟩ : BufTy).Contents (Elt F)),
    unary main_arg1 main_v1 (broadcastInDim S4x2048x1 ![0, 1] bcast_S4x2048_S4x2048x1_0_1 : (⟨S4x2048, .i32⟩ : BufTy).Contents (Elt F) → (⟨S4x2048x1, .i32⟩ : BufTy).Contents (Elt F)),
    nullary main_call1_c (constantI S_ 32 0#32 : (⟨S_, .i32⟩ : BufTy).Contents (Elt F)),
    unary main_call1_c main_call1_v0 ((broadcastInDim S4x2048x1 ![] bcast_S_S4x2048x1) : (⟨S_, .i32⟩ : BufTy).Contents (Elt F) → (⟨S4x2048x1, .i32⟩ : BufTy).Contents (Elt F)),
    binary main_v1 main_call1_v0 main_call1_v1 ((cmpi .slt) : (⟨S4x2048x1, .i32⟩ : BufTy).Contents (Elt F) → (⟨S4x2048x1, .i32⟩ : BufTy).Contents (Elt F) → (⟨S4x2048x1, .i1⟩ : BufTy).Contents (Elt F)),
    nullary main_call1_c_0 (constantI S_ 32 32000#32 : (⟨S_, .i32⟩ : BufTy).Contents (Elt F)),
    unary main_call1_c_0 main_call1_v2 ((broadcastInDim S4x2048x1 ![] bcast_S_S4x2048x1) : (⟨S_, .i32⟩ : BufTy).Contents (Elt F) → (⟨S4x2048x1, .i32⟩ : BufTy).Contents (Elt F)),
    binary main_v1 main_call1_v2 main_call1_v3 (addi : (⟨S4x2048x1, .i32⟩ : BufTy).Contents (Elt F) → (⟨S4x2048x1, .i32⟩ : BufTy).Contents (Elt F) → (⟨S4x2048x1, .i32⟩ : BufTy).Contents (Elt F)),
    ternary main_call1_v1 main_call1_v3 main_v1 main_call1_v4 (select : (⟨S4x2048x1, .i1⟩ : BufTy).Contents (Elt F) → (⟨S4x2048x1, .i32⟩ : BufTy).Contents (Elt F) → (⟨S4x2048x1, .i32⟩ : BufTy).Contents (Elt F) → (⟨S4x2048x1, .i32⟩ : BufTy).Contents (Elt F)),
    reshape main_call1_v4 main_call1_v5 rfl shapeCasts_S4x2048x1_S4x2048x1x1,
    nullary main_call1_c_1 (constantI S1 32 31999#32 : (⟨S1, .i32⟩ : BufTy).Contents (Elt F)),
    nullary main_call1_c_2 (constantI S_ 32 0#32 : (⟨S_, .i32⟩ : BufTy).Contents (Elt F)),
    unary main_call1_c_2 main_call1_v6 ((broadcastInDim S4x2048x1x1 ![] bcast_S_S4x2048x1x1) : (⟨S_, .i32⟩ : BufTy).Contents (Elt F) → (⟨S4x2048x1x1, .i32⟩ : BufTy).Contents (Elt F)),
    binary main_call1_v5 main_call1_v6 main_call1_v7 ((cmpi .sge) : (⟨S4x2048x1x1, .i32⟩ : BufTy).Contents (Elt F) → (⟨S4x2048x1x1, .i32⟩ : BufTy).Contents (Elt F) → (⟨S4x2048x1x1, .i1⟩ : BufTy).Contents (Elt F)),
    unary main_call1_c_1 main_call1_v8 ((broadcastInDim S1x1x1x1 ![3] bcast_S1_S1x1x1x1_3) : (⟨S1, .i32⟩ : BufTy).Contents (Elt F) → (⟨S1x1x1x1, .i32⟩ : BufTy).Contents (Elt F)),
    unary main_call1_v8 main_call1_v9 ((broadcastInDim S4x2048x1x1 ![0, 1, 2, 3] bcast_S1x1x1x1_S4x2048x1x1_0_1_2_3) : (⟨S1x1x1x1, .i32⟩ : BufTy).Contents (Elt F) → (⟨S4x2048x1x1, .i32⟩ : BufTy).Contents (Elt F)),
    binary main_call1_v5 main_call1_v9 main_call1_v10 ((cmpi .sle) : (⟨S4x2048x1x1, .i32⟩ : BufTy).Contents (Elt F) → (⟨S4x2048x1x1, .i32⟩ : BufTy).Contents (Elt F) → (⟨S4x2048x1x1, .i1⟩ : BufTy).Contents (Elt F)),
    binary main_call1_v7 main_call1_v10 main_call1_v11 (andi : (⟨S4x2048x1x1, .i1⟩ : BufTy).Contents (Elt F) → (⟨S4x2048x1x1, .i1⟩ : BufTy).Contents (Elt F) → (⟨S4x2048x1x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S4x2048x1x1_S4x2048x1_d3 h_S_) : (⟨S4x2048x1x1, .i1⟩ : BufTy).Contents (Elt F) → (⟨S_, .i1⟩ : BufTy).Contents (Elt F) → (⟨S4x2048x1, .i1⟩ : BufTy).Contents (Elt F)),
    binary main_v0 main_call1_v5 main_call1_v13 ((fun x i => Host.gather gather_S4x2048x32000_S4x2048x1x1_S4x2048x1_n_2_01_01_2_3_111 x i) : (⟨S4x2048x32000, .f32⟩ : BufTy).Contents (Elt F) → (⟨S4x2048x1x1, .i32⟩ : BufTy).Contents (Elt F) → (⟨S4x2048x1, .f32⟩ : BufTy).Contents (Elt F)),
    nullary main_call1_cst (constant S_ .f32 0x7FC00000#32 : (⟨S_, .f32⟩ : BufTy).Contents (Elt F)),
    unary main_call1_cst main_call1_v14 ((broadcastInDim S4x2048x1 ![] bcast_S_S4x2048x1) : (⟨S_, .f32⟩ : BufTy).Contents (Elt F) → (⟨S4x2048x1, .f32⟩ : BufTy).Contents (Elt F)),
    ternary main_call1_v12 main_call1_v13 main_call1_v14 main_v2 (select : (⟨S4x2048x1, .i1⟩ : BufTy).Contents (Elt F) → (⟨S4x2048x1, .f32⟩ : BufTy).Contents (Elt F) → (⟨S4x2048x1, .f32⟩ : BufTy).Contents (Elt F) → (⟨S4x2048x1, .f32⟩ : BufTy).Contents (Elt F)),
    reshape main_v2 main_v3 rfl shapeCasts_S4x2048x1_S4x2048,
    unary main_v3 main_v4 (Host.negf : (⟨S4x2048, .f32⟩ : BufTy).Contents (Elt F) → (⟨S4x2048, .f32⟩ : BufTy).Contents (Elt F)),
    nullary main_cst (constant S_ .f32 0x00000000#32),
    binary main_v4 main_cst main_v5 ((fun x v => Host.reduceAdd x v reducesTo_S4x2048_S_d0_1 h_S_) : (⟨S4x2048, .f32⟩ : BufTy).Contents (Elt F) → (⟨S_, .f32⟩ : BufTy).Contents (Elt F) → (⟨S_, .f32⟩ : BufTy).Contents (Elt F)) ]

/-- Two lists with equal heads and equal tails. -/
theorem cons_congr {α : Type} {a b : α} {l l' : List α} (h : a = b) (h' : l = l') : a :: l = b :: l' := by rw [h, h']

/-- A two-operand operation over typed references that carry their references' own types is the operation over the
    references, whatever its function: the two transports are along `rfl`. -/
theorem binary_typed (a b y : Ref sig .tc) (oa : a.space ≠ .host) (ua : a.isScoped = false) (ob : b.space ≠ .host)
    (ub : b.isScoped = false) (oy : y.space ≠ .host) (uy : y.isScoped = false)
    (f : a.ty.Contents (Elt F) → b.ty.Contents (Elt F) → y.ty.Contents (Elt F)) :
    (TRef.binary (TRef.of (T := a.ty) a rfl oa ua) (TRef.of (T := b.ty) b rfl ob ub) (TRef.of (T := y.ty) y rfl oy uy) f
        : HloOp τ sig (Elt F))
      = StableHlo.binary a b y f (TRef.of (T := a.ty) a rfl oa ua).dev (TRef.of (T := b.ty) b rfl ob ub).dev
          (TRef.of (T := y.ty) y rfl oy uy).dev := rfl

set_option maxRecDepth 8192 in
/-- Operation by operation, the list spelt over typed references is this one: a typed reference's two transports are
    the identity at a literal reference. The two reductions by a named operation (the row maximum, the mask's `and`)
    go through `binary_typed`, which never looks at the function; the others are seen at once. -/
theorem ops_eq : (ValueP.ops : List (HloOp τ sig (Elt F))) = ops := by
  unfold ValueP.ops ops
  refine cons_congr rfl ?_
  refine cons_congr (binary_typed main_arg0 main_call0_cst main_call0_v0 _ _ _ _ _ _ _) ?_
  iterate 31 refine cons_congr rfl ?_
  refine cons_congr (binary_typed main_call1_v11 main_call1_c_3 main_call1_v12 _ _ _ _ _ _ _) ?_
  iterate 8 refine cons_congr rfl ?_
  exact rfl

/-- @main is the sequence of those operations. -/
theorem main_eq (c : Dev nD) : main (F := F) c = seq ops := (ValueP.main_eq c).trans (congrArg seq ops_eq)

set_option maxRecDepth 8192 in
/-- Every operation touches TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub ..⟩

set_option maxRecDepth 8192 in
set_option maxHeartbeats 2000000 in
/-- On every device, from any memory with zero counters: every weakly fair execution of @main terminates with the
    result at the last stage's value of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
        = ReadP.val_main_v5 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (by after_results_simp <;> exact ReadP.val_main_v5_eq _ _),
      (h c main_arg0).trans (by after_results_simp <;> rfl),
      (h c main_arg1).trans (by after_results_simp <;> rfl)⟩)
    (run_seq ValueP.scopedRefs_eq ValueP.scopedSems_eq defs main (fun _ => ops) main_eq (fun _ => ops_sub) m ρ)

end Cert.ReferenceIdeal.RefRun

end
-- ==== Proof.RefValue.lean ====
/-
  What the reference's result is: the summed cross-entropy of the table, on a table of reals with labels in range.

  Stage by stage, for the row `(b, s)` with scores `v = x[b, s, ·]`: the row maximum is `rowMax v` (a fold of `max` from
  `-inf`, then a `max` with `-inf` again); the shifted scores are `vₖ − rowMax v`; the sum of their exponentials from
  zero and its logarithm are `logSumExp v`; the log-probability at column `k` is `(vₖ − rowMax v) − logSumExp v`.
  For a label `l` with `l < 32000` read unsigned (so `0 ≤ l` read signed): the "negative label" branch is not taken,
  so the wrapped label is `l`; the range mask `0 ≤ l ≤ 31999` is on; the gather's start index `min l 31999` is `l`.
  So the gathered value is the log-probability at column `l`, the fill is never chosen, and its negation is the row's
  negative log-likelihood `CrossEntropy.nll v l` (the two spellings agree on a row of reals: `nll_eq_neg_logProb`).
  The final sum from zero over the pairs `(b, s)` is the sum over the rows `r = 2048 b + s`.
-/
import proofs.«426109_j22007412424754_2_alg».proof.Proof.RefReadP
import proofs.«426109_j22007412424754_2_alg».proof.Proof.CrossEntropy
import Idealize.ShloMosaic.Lib.ValueIdx
import Idealize.ShloMosaic.Lib.Affine
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Cert.CrossEntropy

variable (x : (⟨S4x2048x32000, .f32⟩ : BufTy).Contents (Elt Ideal)) (y : (⟨S4x2048, .i32⟩ : BufTy).Contents (Elt Ideal))

/-- The scores of the row `(b, s)`. -/
def row (b : Fin 4) (s : Fin 2048) : Fin 32000 → EReal := fun k => x (ix3 b s k)

/-- The f32 pattern of `-inf` denotes the bottom of the extended reals. -/
theorem ofBits_negInf : Ideal.ofBits .f32 0xFF800000#32 = ⊥ := by simp [Ideal.ofBits, Ideal.ieee]

/-- Inserting column `k` into the pair `(b, s)` gives the entry `(b, s, k)`. -/
theorem lift_col (h : S4x2048x32000.Reduces [2] S4x2048) (b : Fin 4) (s : Fin 2048) (k : Fin 32000) :
    h.lift (ix2 b s) k = ix3 b s k :=
  funext fun a => Fin.ext (match a with | ⟨0, _⟩ => rfl | ⟨1, _⟩ => rfl | ⟨2, _⟩ => rfl)

/-! ## `log_softmax` -/

/-- The reduction by `max` over the columns, from `-inf`: the row's maximum. -/
theorem max_stage (b : Fin 4) (s : Fin 2048) : val_main_call0_v0 (F := Ideal) x (ix2 b s) = rowMax (row x b s) := by
  unfold val_main_call0_v0
  refine (Host.reduce_eq_fold_single (α := Ideal .f32) (s := S4x2048x32000) (t := S4x2048) (a := 2) (u := S_)
    FloatOps.maximumf x (val_main_call0_cst (F := Ideal)) reducesTo_S4x2048x32000_S4x2048_d2 (by decide) h_S_ (ix2 b s)).trans ?_
  unfold rowMax
  show (Finset.univ : Finset (Fin 32000)).fold max (Ideal.ofBits .f32 0xFF800000#32) (x ∘ _) = _
  rw [ofBits_negInf]
  exact congrArg (fun f => (Finset.univ : Finset (Fin 32000)).fold max ⊥ f) (funext fun k => congrArg x (lift_col _ b s k))

/-- … and its `max` with `-inf` again is itself. -/
theorem max_stage' (b : Fin 4) (s : Fin 2048) : val_main_call0_v2 (F := Ideal) x (ix2 b s) = rowMax (row x b s) := by
  rw [val_main_call0_v2_apply, max_stage]
  show max (Ideal.ofBits .f32 0xFF800000#32) _ = _
  rw [ofBits_negInf]
  exact max_eq_right bot_le

/-- The shifted scores. -/
theorem shifted_stage (b : Fin 4) (s : Fin 2048) (k : Fin 32000) :
    val_main_call0_v5 (F := Ideal) x (ix3 b s k) = row x b s k - rowMax (row x b s) := by
  rw [val_main_call0_v5_apply, val_main_call0_v4_apply, val_main_call0_v3_apply]
  have e : idx_main_call0_v3 (idx_main_call0_v4 (ix3 b s k)) = ix2 b s :=
    funext fun a => Fin.ext (match a with | ⟨0, _⟩ => rfl | ⟨1, _⟩ => rfl)
  rw [e, max_stage']
  rfl

/-- The sum of the exponentials of the shifted scores, from zero. -/
theorem sumexp_stage (b : Fin 4) (s : Fin 2048) :
    val_main_call0_v7 (F := Ideal) x (ix2 b s) = ∑ k : Fin 32000, Ideal.exp (row x b s k - rowMax (row x b s)) := by
  rw [val_main_call0_v7_apply]
  show Ideal.ofBits .f32 0x00000000#32 + _ = _
  rw [Ideal.ofBits_zero_f32, zero_add]
  refine Finset.sum_congr rfl fun k _ => ?_
  rw [val_main_call0_v6_apply]
  have e : idx_main_call0_v7 (ix2 b s) k = ix3 b s k :=
    funext fun a => Fin.ext (match a with | ⟨0, _⟩ => rfl | ⟨1, _⟩ => rfl | ⟨2, _⟩ => rfl)
  rw [e, shifted_stage]
  rfl

/-- The log-probability of column `k` in the row `(b, s)`. -/
theorem logProb_stage (b : Fin 4) (s : Fin 2048) (k : Fin 32000) :
    val_main_v0 (F := Ideal) x (ix3 b s k) = (row x b s k - rowMax (row x b s)) - logSumExp (row x b s) := by
  rw [val_main_v0_apply, shifted_stage, val_main_call0_v10_apply, val_main_call0_v9_apply, val_main_call0_v8_apply]
  have e : idx_main_call0_v8 (idx_main_call0_v10 (ix3 b s k)) = ix2 b s :=
    funext fun a => Fin.ext (match a with | ⟨0, _⟩ => rfl | ⟨1, _⟩ => rfl)
  rw [e, sumexp_stage]
  unfold logSumExp
  rw [Ideal.subf_def, Ideal.hostUnary_log_def]

/-! ## `take_along_axis` at labels in range -/

/-- A word below 32000 read unsigned is that number read signed. -/
theorem toInt_of_lt (l : BitVec 32) (h : l.toNat < 32000) : l.toInt = (l.toNat : Int) :=
  BitVec.toInt_eq_toNat_of_lt (by omega)

/-- The label the gather is given: the label itself, the "negative label" branch not being taken. -/
theorem wrapped_stage (hy : ∀ j, (y j).toNat < 32000) (i : S4x2048x1x1.Idx) :
    val_main_call1_v5 (F := Ideal) y i = y (idx_main_v1 (idx_main_call1_v5 i)) := by
  rw [val_main_call1_v5_apply, val_main_call1_v4_apply, val_main_call1_v1_apply, val_main_v1_apply]
  have hneg : ¬ IntOp.cmpi .slt (y (idx_main_v1 (idx_main_call1_v5 i))) (val_main_call1_v0 (F := Ideal) (idx_main_call1_v5 i)) = 1#1 := by
    intro e
    have := IntOp.cmpi_slt.mp e
    rw [toInt_of_lt _ (hy _)] at this
    have h0 : (val_main_call1_v0 (F := Ideal) (idx_main_call1_v5 i)).toInt = 0 := rfl
    omega
  rw [eq_zero_of_ne_one hneg]
  exact select_zero _ _

/-- A left fold by `and` from 1 over words that are all 1 is 1. -/
theorem foldl_andi_one {ι : Type} (f : ι → BitVec 1) :
    ∀ l : List ι, (∀ i ∈ l, f i = 1#1) → l.foldl (fun r i => IntOp.andi r (f i)) 1#1 = 1#1
  | [], _ => rfl
  | a :: l, h => by
    rw [List.foldl_cons, h a (List.mem_cons_self ..)]
    exact foldl_andi_one f l fun i hi => h i (List.mem_cons_of_mem _ hi)

/-- The range mask is on at every row. -/
theorem mask_stage (hy : ∀ j, (y j).toNat < 32000) (i : S4x2048x1.Idx) : val_main_call1_v12 (F := Ideal) y i = 1#1 := by
  unfold val_main_call1_v12
  rw [Host.reduce_eq_foldl]
  refine foldl_andi_one _ _ fun i4 _ => ?_
  rw [val_main_call1_v11_apply, val_main_call1_v7_apply, val_main_call1_v10_apply, wrapped_stage y hy]
  refine IntOp.andi_eq_one.mpr ⟨IntOp.cmpi_sge.mpr ?_, IntOp.cmpi_sle.mpr ?_⟩
  · rw [toInt_of_lt _ (hy _)]
    have h0 : (val_main_call1_v6 (F := Ideal) i4).toInt = 0 := rfl
    omega
  · rw [toInt_of_lt _ (hy _)]
    have h0 : (val_main_call1_v9 (F := Ideal) i4).toInt = 31999 := rfl
    have := hy (idx_main_v1 (idx_main_call1_v5 i4))
    omega

/-- The gather reads, for the row `(b, s)`, the entry `(b, s, c)` with `c` its start index read signed and clamped into
    `[0, 31999]`: the first two axes are batching axes, the third is the one the start index names. -/
theorem gather_idx (idx : IVec S4x2048x1x1 32) (b : Fin 4) (s : Fin 2048) :
    gather_S4x2048x32000_S4x2048x1x1_S4x2048x1_n_2_01_01_2_3_111.operandIdx (ix3 b s (0 : Fin 1)) idx
      = ix3 b s (⟨min (idx (ix4 b s (0 : Fin 1) (0 : Fin 1))).toInt.toNat 31999, by omega⟩ : Fin 32000) :=
  funext fun a => Fin.ext (match a with
    | ⟨0, _⟩ => by
      show gather_S4x2048x32000_S4x2048x1x1_S4x2048x1_n_2_01_01_2_3_111.start (ix3 b s (0 : Fin 1)) idx 0
          + gather_S4x2048x32000_S4x2048x1x1_S4x2048x1_n_2_01_01_2_3_111.batchCoord (ix3 b s (0 : Fin 1)) 0
          + gather_S4x2048x32000_S4x2048x1x1_S4x2048x1_n_2_01_01_2_3_111.offCoord (ix3 b s (0 : Fin 1)) 0 = b.val
      rw [GatherDims.start_batching _ _ _ _ (by decide),
        GatherDims.offCoord_eq_zero _ _ _ (fun h => ((GatherDims.mem_sKept _ _).mp h).2 (by decide))]
      simp only [Nat.zero_add, Nat.add_zero]
      unfold GatherDims.batchCoord
      rw [dif_pos (by decide)]
      rfl
    | ⟨1, _⟩ => by
      show gather_S4x2048x32000_S4x2048x1x1_S4x2048x1_n_2_01_01_2_3_111.start (ix3 b s (0 : Fin 1)) idx 1
          + gather_S4x2048x32000_S4x2048x1x1_S4x2048x1_n_2_01_01_2_3_111.batchCoord (ix3 b s (0 : Fin 1)) 1
          + gather_S4x2048x32000_S4x2048x1x1_S4x2048x1_n_2_01_01_2_3_111.offCoord (ix3 b s (0 : Fin 1)) 1 = s.val
      rw [GatherDims.start_batching _ _ _ _ (by decide),
        GatherDims.offCoord_eq_zero _ _ _ (fun h => ((GatherDims.mem_sKept _ _).mp h).2 (by decide))]
      simp only [Nat.zero_add, Nat.add_zero]
      unfold GatherDims.batchCoord
      rw [dif_pos (by decide)]
      rfl
    | ⟨2, _⟩ => by
      show gather_S4x2048x32000_S4x2048x1x1_S4x2048x1_n_2_01_01_2_3_111.start (ix3 b s (0 : Fin 1)) idx 2
          + gather_S4x2048x32000_S4x2048x1x1_S4x2048x1_n_2_01_01_2_3_111.batchCoord (ix3 b s (0 : Fin 1)) 2
          + gather_S4x2048x32000_S4x2048x1x1_S4x2048x1_n_2_01_01_2_3_111.offCoord (ix3 b s (0 : Fin 1)) 2 = _
      rw [GatherDims.batchCoord_eq_zero _ _ _ (by decide),
        GatherDims.offCoord_eq_zero _ _ _ (fun h => ((GatherDims.mem_sKept _ _).mp h).1 (by decide))]
      simp only [Nat.add_zero]
      unfold GatherDims.start
      rw [dif_pos (show (2 : Fin 3) ∈ gather_S4x2048x32000_S4x2048x1x1_S4x2048x1_n_2_01_01_2_3_111.startIndexMap from by decide)]
      have hsi : gather_S4x2048x32000_S4x2048x1x1_S4x2048x1_n_2_01_01_2_3_111.siIdx (ix3 b s (0 : Fin 1))
          ⟨List.idxOf (2 : Fin 3) gather_S4x2048x32000_S4x2048x1x1_S4x2048x1_n_2_01_01_2_3_111.startIndexMap,
            List.idxOf_lt_length_iff.2 (by decide)⟩ = ix4 b s (0 : Fin 1) (0 : Fin 1) :=
        funext fun e => Fin.ext (match e with | ⟨0, _⟩ => rfl | ⟨1, _⟩ => rfl | ⟨2, _⟩ => rfl | ⟨3, _⟩ => rfl)
      rw [hsi]
      rfl)

/-- At a row whose label is in range, the value chosen is the log-probability in the label's column. -/
theorem chosen_stage (hy : ∀ j, (y j).toNat < 32000) (b : Fin 4) (s : Fin 2048) :
    val_main_v2 (F := Ideal) x y (ix3 b s (0 : Fin 1))
      = (row x b s ⟨(y (ix2 b s)).toNat, hy _⟩ - rowMax (row x b s)) - logSumExp (row x b s) := by
  rw [val_main_v2_apply, mask_stage y hy, select_one]
  unfold val_main_call1_v13 Host.gather
  rw [gather_idx]
  have e : idx_main_v1 (idx_main_call1_v5 (ix4 b s (0 : Fin 1) (0 : Fin 1))) = ix2 b s :=
    funext fun a => Fin.ext (match a with
      | ⟨0, _⟩ => by show (((b.val * 2048 + s.val) * 1 + 0) * 1 + 0) / 2048 = b.val; have := s.isLt; omega
      | ⟨1, _⟩ => by show (((b.val * 2048 + s.val) * 1 + 0) * 1 + 0) / 1 % 2048 = s.val; have := s.isLt; omega)
  have ec : (⟨min (val_main_call1_v5 (F := Ideal) y (ix4 b s (0 : Fin 1) (0 : Fin 1))).toInt.toNat 31999, by omega⟩ : Fin 32000)
      = ⟨(y (ix2 b s)).toNat, hy _⟩ :=
    Fin.ext (by
      show min (val_main_call1_v5 (F := Ideal) y (ix4 b s (0 : Fin 1) (0 : Fin 1))).toInt.toNat 31999 = (y (ix2 b s)).toNat
      rw [wrapped_stage y hy, e, toInt_of_lt _ (hy _), Int.toNat_natCast]
      have := hy (ix2 b s)
      omega)
  rw [ec]
  exact logProb_stage x b s _

/-! ## The sum over the rows -/

/-- THE REFERENCE'S VALUE: on a table of reals with every label in range, the result is the summed cross-entropy. -/
theorem result_apply (hx : ∀ i, x i ≠ ⊤ ∧ x i ≠ ⊥) (hy : ∀ j, (y j).toNat < 32000) (i : S_.Idx) :
    val_main_v5 (F := Ideal) x y i = total x y := by
  rw [val_main_v5_apply]
  show Ideal.ofBits .f32 0x00000000#32 + _ = _
  rw [Ideal.ofBits_zero_f32, zero_add, sum_idx2]
  unfold total
  rw [← sum_blocks 4 2048 (fun r : Fin (4 * 2048) => nll (scoreRow x r) (label y r))]
  refine Finset.sum_congr rfl fun b _ => Finset.sum_congr rfl fun s _ => ?_
  rw [val_main_v4_apply, val_main_v3_apply]
  have e : idx_main_v3 (ix2 b s) = ix3 b s (0 : Fin 1) :=
    funext fun a => Fin.ext (match a with
      | ⟨0, _⟩ => by show (b.val * 2048 + s.val) / 2048 = b.val; have := s.isLt; omega
      | ⟨1, _⟩ => by show (b.val * 2048 + s.val) / 1 % 2048 = s.val; have := s.isLt; omega
      | ⟨2, _⟩ => rfl)
  rw [e, chosen_stage x y hy]
  have hv : ((finProdFinEquiv (b, s) : Fin (4 * 2048)) : ℕ) = s.val + 2048 * b.val := finProdFinEquiv_apply_val _
  have er : scoreRow x (finProdFinEquiv (b, s) : Fin (4 * 2048)) = row x b s :=
    funext fun k => congrArg x (funext fun a => Fin.ext (match a with
      | ⟨0, _⟩ => by show ((finProdFinEquiv (b, s) : Fin (4 * 2048)) : ℕ) / 2048 = b.val; rw [hv]; have := s.isLt; omega
      | ⟨1, _⟩ => by show ((finProdFinEquiv (b, s) : Fin (4 * 2048)) : ℕ) % 2048 = s.val; rw [hv]; have := s.isLt; omega
      | ⟨2, _⟩ => rfl))
  have el : label y (finProdFinEquiv (b, s) : Fin (4 * 2048)) = y (ix2 b s) :=
    congrArg y (funext fun a => Fin.ext (match a with
      | ⟨0, _⟩ => by show ((finProdFinEquiv (b, s) : Fin (4 * 2048)) : ℕ) / 2048 = b.val; rw [hv]; have := s.isLt; omega
      | ⟨1, _⟩ => by show ((finProdFinEquiv (b, s) : Fin (4 * 2048)) : ℕ) % 2048 = s.val; rw [hv]; have := s.isLt; omega))
  rw [er, el, nll_eq_neg_logProb (row x b s) (y (ix2 b s)) (by decide) (hy _) (fun k => hx _), Ideal.hostNegf_def, Ideal.negf_def]

end Cert.ReferenceIdeal.RefValue

end
-- ==== Proof.Domain.lean ====
/-
  What the precondition says of the two inputs.

  The precondition is the conjunction of two "for all entries" statements, each printed as a reduction by `and` of a
  table of one-bit words from the word 1: every score's absolute value is below `+inf`, and every label `l` has
  `0 ≤ l` and `l < 32000` as signed 32-bit integers. A reduction by `and` that came out 1 met only 1s, so each entry's
  word is 1, and a comparison's word being 1 is the comparison.
  An extended real whose absolute value `max x (−x)` is below `⊤` is neither `⊤` nor `⊥` (at either infinity that
  maximum is `⊤`): a real number. A label with `0 ≤ l < 32000` as a signed integer is, read unsigned, the same
  number below 32000.
-/
import proofs.«426109_j22007412424754_2_alg».proof.Proof.Gen.Pre_finite_inputs
import Idealize.ShloMosaic.Lib.ReduceAll
import Idealize.ShloMosaic.Lib.ValueIdx
import Idealize.ShloMosaic.PureOps.Ideal.Laws

noncomputable section

namespace Cert.Domain

open Idealize.ShloMosaic Cert.Pre_finite_inputs Cert.Pre_finite_inputs.Gen

instance : Subsingleton S_.Idx := ⟨fun a b => funext fun d => d.elim0⟩

/-- The f32 pattern of `+inf` denotes the top of the extended reals. -/
theorem ofBits_posInf : Ideal.ofBits .f32 0x7F800000#32 = ⊤ := by simp [Ideal.ofBits, Ideal.ieee]

/-- An extended real whose absolute value is below `⊤` is a real number. -/
theorem real_of_abs_lt_top (x : EReal) (h : max x (-x) < ⊤) : x ≠ ⊤ ∧ x ≠ ⊥ := by
  constructor
  · rintro rfl; simp at h
  · rintro rfl; simp at h

/-- A one-bit word made from a decidable proposition is 1 exactly when the proposition holds. -/
theorem of_ofBool_decide {p : Prop} [Decidable p] (h : BitVec.ofBool (decide p) = 1#1) : p := by
  by_cases hp : p
  · exact hp
  · rw [decide_eq_false hp] at h; exact absurd h (by decide)

/-- A signed word in `[0, 32000)` is, read unsigned, below 32000. -/
theorem toNat_lt_of_toInt (l : BitVec 32) (h0 : 0 ≤ l.toInt) (h1 : l.toInt < 32000) : l.toNat < 32000 := by
  have := BitVec.toInt_eq_toNat_cond l
  split at this <;> omega

/-- THE PRECONDITION, READ: every score is a real number and every label is in `[0, 32000)`. -/
theorem of_pre (x : FVec Ideal S4x2048x32000 .f32) (y : IVec S4x2048 32)
    (h : fn (F := Ideal) x y = fun _ => 1#1) :
    (∀ i, x i ≠ ⊤ ∧ x i ≠ ⊥) ∧ ∀ j, (y j).toNat < 32000 := by
  have h0 := congrFun h ValueIdx.ix0
  dsimp only [fn] at h0
  obtain ⟨hx, hy⟩ := IntOp.andi_eq_one.mp h0
  refine ⟨fun i => ?_, fun j => ?_⟩
  · have e := Host.reduce_andi_all _ _ _ _ _ hx i
    have e' : BitVec.ofBool (decide (max (x i) (-(x i)) < Ideal.ofBits .f32 0x7F800000#32)) = 1#1 := e
    rw [ofBits_posInf] at e'
    exact real_of_abs_lt_top _ (of_ofBool_decide e')
  · have e := Host.reduce_andi_all _ _ _ _ _ hy j
    obtain ⟨e0, e1⟩ := IntOp.andi_eq_one.mp e
    have g0 : (0#32 : BitVec 32).toInt ≤ (y j).toInt := IntOp.cmpi_sge.mp e0
    have g1 : (y j).toInt < (32000#32 : BitVec 32).toInt := IntOp.cmpi_slt.mp e1
    exact toNat_lt_of_toInt _ (by simpa using g0) (by
      have : (32000#32 : BitVec 32).toInt = 32000 := by decide
      omega)

end Cert.Domain

end
-- ==== Proof.lean ====
/-
  The summed cross-entropy of a (4, 2048, 32000) table of scores at a (4, 2048) table of labels: a kernel that streams
  the scores in blocks of 32 rows and accumulates into one scalar, against `log_softmax`, `take_along_axis`, a negation
  and a sum.

  Per row `v` with label `l` the kernel forms `(max v + log ∑ₖ exp (vₖ − max v)) − ∑ₖ [k = l] · vₖ`, the score in the
  label's column picked by a one-hot mask of the column numbers; it sums 32 such rows per grid point and adds the sum to a
  (1, 1) block that point 0 first sets to zero and that is written back once, after point 255. The reference forms
  `−((v_l − max v) − log ∑ₖ exp (vₖ − max v))`, the label first wrapped if negative, a fill value chosen where the wrapped
  label is out of range, and sums the 8192 rows from zero.
  Under the precondition every score is a real number and every label is in `[0, 32000)`. Then the one-hot sum is `v_l`,
  no label is wrapped and no fill is chosen, and the two spellings of the row's term agree because `v_l` and `max v` are
  real (`CrossEntropy.nll_eq_neg_logProb`; it holds whatever extended real the logarithm is). Both results are then the
  same sum of the same 8192 terms, block by block on one side and pair by pair on the other
  (`KernelIdeal.Total.scalar_apply`, `ReferenceIdeal.RefValue.result_apply`, both equal to `CrossEntropy.total`).
  Outside that label range the claim fails: at the label −1 the reference reads the last column while the one-hot mask
  matches none.
  The kernel's two frames are the generated ones; the reference's is its run with the result dropped; the ideal pass
  rewrote nothing, so `preserves` is `True`.
-/
import proofs.«426109_j22007412424754_2_alg».proof.Defs
import proofs.«426109_j22007412424754_2_alg».proof.Proof.Gen.Kernel
import proofs.«426109_j22007412424754_2_alg».proof.Proof.Gen.Kernel.Frame
import proofs.«426109_j22007412424754_2_alg».proof.Proof.Gen.KernelIdeal
import proofs.«426109_j22007412424754_2_alg».proof.Proof.Gen.KernelIdeal.Frame
import proofs.«426109_j22007412424754_2_alg».proof.Proof.Gen.ReferenceIdeal
import proofs.«426109_j22007412424754_2_alg».proof.Proof.Gen.Pre_finite_inputs
import proofs.«426109_j22007412424754_2_alg».proof.Proof.KernelValue
import proofs.«426109_j22007412424754_2_alg».proof.Proof.RefRun
import proofs.«426109_j22007412424754_2_alg».proof.Proof.RefValue
import proofs.«426109_j22007412424754_2_alg».proof.Proof.Domain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- At the ideal values, from memories agreeing on the two arguments, the kernel's scalar and the reference's result are
    both the summed cross-entropy of the table. -/
theorem algebraic : Cert.algebraic_KernelIdeal_ReferenceIdeal := by
  intro m ρ m' ρ' hpre hagree
  refine ⟨fun c => Cert.KernelIdeal.Total.scalar m c, Cert.KernelIdeal.Total.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨hx, hy⟩ := Cert.Domain.of_pre _ _ (hpre c)
  rw [(hagree c).1, (hagree c).2]
  funext i
  exact (Cert.ReferenceIdeal.RefValue.result_apply _ _ hx hy i).trans (Cert.KernelIdeal.Total.scalar_apply m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
